-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S64x64 .f32) (main_arg3 : FVec F S64 .f32) (main_arg4 : FVec F S64x1 .f32) (main_arg5 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg4
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S850000x64 : Shape := ⟨2, ![850000, 64]⟩
abbrev S5000x64 : Shape := ⟨2, ![5000, 64]⟩
abbrev S5000x1 : Shape := ⟨2, ![5000, 1]⟩
abbrev S1x64 : Shape := ⟨2, ![1, 64]⟩
abbrev S1x1 : Shape := ⟨2, ![1, 1]⟩

abbrev nBuf : Space → Nat
  | .hbm => 77
  | .vmem => 7
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S_, .f32⟩
  | .hbm, ⟨33, _⟩ => ⟨S50000, .f32⟩
  | .hbm, ⟨34, _⟩ => ⟨S50000, .i1⟩
  | .hbm, ⟨35, _⟩ => ⟨S50000, .f32⟩
  | .hbm, ⟨36, _⟩ => ⟨S_, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x64, .f32⟩
  | .hbm, ⟨42, _⟩ => ⟨S50000x64, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x64, .f32⟩
  | .hbm, ⟨52, _⟩ => ⟨S_, .f32⟩
  | .hbm, ⟨53, _⟩ => ⟨S50000x64, .f32⟩
  | .hbm, ⟨54, _⟩ => ⟨S850000x1, .i32⟩
  | .hbm, ⟨55, _⟩ => ⟨S50000x64, .f32⟩
  | .hbm, ⟨56, _⟩ => ⟨S50000x64, .f32⟩
  | .hbm, ⟨57, _⟩ => ⟨S50000x64, .f32⟩
  | .hbm, ⟨58, _⟩ => ⟨S50000x1, .f32⟩
  | .hbm, ⟨59, _⟩ => ⟨S50000x1, .f32⟩
  | .hbm, ⟨60, _⟩ => ⟨S_, .i32⟩
  | .hbm, ⟨61, _⟩ => ⟨S850000, .i32⟩
  | .hbm, ⟨62, _⟩ => ⟨S850000, .i1⟩
  | .hbm, ⟨63, _⟩ => ⟨S_, .i32⟩
  | .hbm, ⟨64, _⟩ => ⟨S850000, .i32⟩
  | .hbm, ⟨65, _⟩ => ⟨S850000, .i32⟩
  | .hbm, ⟨66, _⟩ => ⟨S850000, .i32⟩
  | .hbm, ⟨67, _⟩ => ⟨S850000x1, .i32⟩
  | .hbm, ⟨68, _⟩ => ⟨S850000x1, .f32⟩
  | .hbm, ⟨69, _⟩ => ⟨S_, .f32⟩
  | .hbm, ⟨70, _⟩ => ⟨S50000x1, .f32⟩
  | .hbm, ⟨71, _⟩ => ⟨S850000x1, .i32⟩
  | .hbm, ⟨72, _⟩ => ⟨S50000x1, .f32⟩
  | .hbm, ⟨73, _⟩ => ⟨S50000x1, .f32⟩
  | .hbm, ⟨74, _⟩ => ⟨S1x1, .f32⟩
  | .hbm, ⟨75, _⟩ => ⟨S50000x1, .f32⟩
  | .hbm, ⟨76, _⟩ => ⟨S50000x1, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S64, .f32⟩
  | .local _ .vmem, ⟨4, _⟩ => ⟨S64x1, .f32⟩
  | .local _ .vmem, ⟨5, _⟩ => ⟨S5000x1, .f32⟩
  | .local _ .vmem, ⟨6, _⟩ => ⟨S5000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_call1_v0 : Ref sig .tc := ⟨.hbm, 37, rfl⟩
abbrev main_call1_v1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_8 : Ref sig .tc := ⟨.hbm, 60, rfl⟩
abbrev main_v40 : Ref sig .tc := ⟨.hbm, 61, rfl⟩
abbrev main_v41 : Ref sig .tc := ⟨.hbm, 62, rfl⟩
abbrev main_c_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  inb_S5000x1_S5000x1_0_0 : ∀ a, (![0, 0] : Fin 2 → Nat) a + S5000x1.size a ≤ S5000x1.size a
  h_S5000x1 : 0 < S5000x1.numel
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S850000x1_S850000_n_0_0_1_wf : ScatterDims.WF S50000 S850000x1 S850000 [] [0] [0] 1
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  gather_S50000x1_S850000x1_S850000x1_1_0_n_n_0_1_11_wf : GatherDims.WF S50000x1 S850000x1 S850000x1 [1] [0] [] [0] [] 1 ![1, 1]
  scatter_S50000x1_S850000x1_S850000x1_1_0_0_1_wf : ScatterDims.WF S50000x1 S850000x1 S850000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S50000x1.size a
  hwx0_4 : ∀ i : grid0.Coords, EltTy.bits .f32 = 32 ∨ (Rect.block (s := S50000x1) S5000x1.size (cc0_transform_4 i) (hinb0_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def gather_S50000x1_S850000x1_S850000x1_1_0_n_n_0_1_11 : GatherDims S50000x1 S850000x1 S850000x1 where
  offsetDims := [1]
  collapsedSliceDims := [0]
  operandBatchingDims := []
  startIndicesBatchingDims := []
  startIndexMap := [0]
  indexVectorDim := 1
  sliceSizes := ![1, 1]
  wf := gather_S50000x1_S850000x1_S850000x1_1_0_n_n_0_1_11_wf
def scatter_S50000x1_S850000x1_S850000x1_1_0_0_1 : ScatterDims S50000x1 S850000x1 S850000x1 where
  updateWindowDims := [1]
  insertedWindowDims := [0]
  scatterDimsToOperandDims := [0]
  indexVectorDim := 1
  wf := scatter_S50000x1_S850000x1_S850000x1_1_0_0_1_wf

abbrev win0_0 : Pipeline.Window sig grid0 :=
  Pipeline.Window.ofSpec (Memref.whole main_v37) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S5000x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S850000x64 : Shape := ⟨2, ![850000, 64]⟩
abbrev S1x64 : Shape := ⟨2, ![1, 64]⟩
abbrev S1x1 : Shape := ⟨2, ![1, 1]⟩

abbrev nBuf : Space → Nat
  | .hbm => 84
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S_, .f32⟩
  | .hbm, ⟨33, _⟩ => ⟨S50000, .f32⟩
  | .hbm, ⟨34, _⟩ => ⟨S50000, .i1⟩
  | .hbm, ⟨35, _⟩ => ⟨S50000, .f32⟩
  | .hbm, ⟨36, _⟩ => ⟨S_, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x64, .f32⟩
  | .hbm, ⟨42, _⟩ => ⟨S50000x64, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x64, .f32⟩
  | .hbm, ⟨52, _⟩ => ⟨S_, .f32⟩
  | .hbm, ⟨53, _⟩ => ⟨S50000x64, .f32⟩
  | .hbm, ⟨54, _⟩ => ⟨S850000x1, .i32⟩
  | .hbm, ⟨55, _⟩ => ⟨S50000x64, .f32⟩
  | .hbm, ⟨56, _⟩ => ⟨S50000x64, .f32⟩
  | .hbm, ⟨57, _⟩ => ⟨S50000x64, .f32⟩
  | .hbm, ⟨58, _⟩ => ⟨S50000x64, .f32⟩
  | .hbm, ⟨59, _⟩ => ⟨S1x64, .f32⟩
  | .hbm, ⟨60, _⟩ => ⟨S50000x64, .f32⟩
  | .hbm, ⟨61, _⟩ => ⟨S50000x64, .f32⟩
  | .hbm, ⟨62, _⟩ => ⟨S_, .f32⟩
  | .hbm, ⟨63, _⟩ => ⟨S50000x64, .f32⟩
  | .hbm, ⟨64, _⟩ => ⟨S50000x64, .f32⟩
  | .hbm, ⟨65, _⟩ => ⟨S50000x1, .f32⟩
  | .hbm, ⟨66, _⟩ => ⟨S50000x1, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x1, .f32⟩
  | .hbm, ⟨76, _⟩ => ⟨S_, .f32⟩
  | .hbm, ⟨77, _⟩ => ⟨S50000x1, .f32⟩
  | .hbm, ⟨78, _⟩ => ⟨S850000x1, .i32⟩
  | .hbm, ⟨79, _⟩ => ⟨S50000x1, .f32⟩
  | .hbm, ⟨80, _⟩ => ⟨S50000x1, .f32⟩
  | .hbm, ⟨81, _⟩ => ⟨S1x1, .f32⟩
  | .hbm, ⟨82, _⟩ => ⟨S50000x1, .f32⟩
  | .hbm, ⟨83, _⟩ => ⟨S50000x1, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_call1_v0 : Ref sig .tc := ⟨.hbm, 37, rfl⟩
abbrev main_call1_v1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_call2_cst : Ref sig .tc := ⟨.hbm, 62, rfl⟩
abbrev main_call2_v0 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_8 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S850000x1_S850000_n_0_0_1_wf : ScatterDims.WF S50000 S850000x1 S850000 [] [0] [0] 1
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []
  gather_S50000x1_S850000x1_S850000x1_1_0_n_n_0_1_11_wf : GatherDims.WF S50000x1 S850000x1 S850000x1 [1] [0] [] [0] [] 1 ![1, 1]
  scatter_S50000x1_S850000x1_S850000x1_1_0_0_1_wf : ScatterDims.WF S50000x1 S850000x1 S850000x1 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def gather_S50000x1_S850000x1_S850000x1_1_0_n_n_0_1_11 : GatherDims S50000x1 S850000x1 S850000x1 where
  offsetDims := [1]
  collapsedSliceDims := [0]
  operandBatchingDims := []
  startIndicesBatchingDims := []
  startIndexMap := [0]
  indexVectorDim := 1
  sliceSizes := ![1, 1]
  wf := gather_S50000x1_S850000x1_S850000x1_1_0_n_n_0_1_11_wf
def scatter_S50000x1_S850000x1_S850000x1_1_0_0_1 : ScatterDims S50000x1 S850000x1 S850000x1 where
  updateWindowDims := [1]
  insertedWindowDims := [0]
  scatterDimsToOperandDims := [0]
  indexVectorDim := 1
  wf := scatter_S50000x1_S850000x1_S850000x1_1_0_0_1_wf

class Facts : Prop extends Facts₀ where

variable [Facts]
-- ==== Proof.Spec.lean ====
/-
  The function both programs compute between the two graph aggregations: a two-layer perceptron applied row by row.
  For a row r of an [n, 64] array a, weights W1 : [64, 64], bias b1 : [64] and W2 : [64, 1], the hidden activation is
      h[r, k] = max (∑ j, a[r, j] · W1[j, k] + b1[k], 0)
  and the result is the [n, 1] array
      z[r, 0] = ∑ k, h[r, k] · W2[k, 0].
  Everything is over the extended reals; the zero of the rectifier is kept as the word both programs print.
  The row count n is a parameter: the kernel applies the function to a block of 5000 rows, the reference to all 50000.
-/
import Idealize.ShloMosaic.PureOps.Ideal
import Idealize.ShloMosaic.Lib.ValueIdx

noncomputable section

open scoped BigOperators

namespace Cert.Spec

open Idealize.ShloMosaic Idealize.ShloMosaic.ValueIdx

/-- The hidden activation of row `r` at unit `k`: the rectified affine image of the row. -/
def hidden {n : Nat} (a : (⟨2, ![n, 64]⟩ : Shape).Idx → EReal) (W1 : (⟨2, ![64, 64]⟩ : Shape).Idx → EReal)
    (b1 : (⟨1, ![64]⟩ : Shape).Idx → EReal) (r : Fin n) (k : Fin 64) : EReal :=
  max ((∑ j : Fin 64, a (ix2 r j) * W1 (ix2 j k)) + b1 (ix1 k)) (Ideal.ofBits .f32 0x00000000#32)

/-- The perceptron's output column: the hidden activations of a row against the second weight column. -/
def mlp {n : Nat} (a : (⟨2, ![n, 64]⟩ : Shape).Idx → EReal) (W1 : (⟨2, ![64, 64]⟩ : Shape).Idx → EReal)
    (b1 : (⟨1, ![64]⟩ : Shape).Idx → EReal) (W2 : (⟨2, ![64, 1]⟩ : Shape).Idx → EReal) :
    (⟨2, ![n, 1]⟩ : Shape).Idx → EReal :=
  fun i => ∑ k : Fin 64, hidden a W1 b1 (i 0) k * W2 (ix2 k (i 1))

/-- The hidden activation depends on the row's entries only: two arrays that agree on row `r` of the one and row `r'`
    of the other give the same activation there. -/
theorem hidden_congr {n n' : Nat} (a : (⟨2, ![n, 64]⟩ : Shape).Idx → EReal) (a' : (⟨2, ![n', 64]⟩ : Shape).Idx → EReal)
    (W1 : (⟨2, ![64, 64]⟩ : Shape).Idx → EReal) (b1 : (⟨1, ![64]⟩ : Shape).Idx → EReal) (r : Fin n) (r' : Fin n') (k : Fin 64)
    (h : ∀ j : Fin 64, a (ix2 r j) = a' (ix2 r' j)) : hidden a W1 b1 r k = hidden a' W1 b1 r' k := by
  unfold hidden
  rw [Finset.sum_congr rfl fun j _ => by rw [h j]]

end Cert.Spec

end
-- ==== Proof.RefBridge.lean ====
/-
  The reference, cut where the kernel is cut. Both programs first aggregate the node features over the graph
  (degree-normalised gather and scatter-add, with self-loops), then apply a two-layer perceptron row by row, then
  aggregate the perceptron's one output column over the same graph and add the last bias. The reference does the middle
  step on the host: a `dot_general` with the first weight matrix, the bias broadcast along the rows, a maximum with zero,
  a `dot_general` with the second weight column. Over the extended reals each `dot_general` entry is the sum over the 64
  contracted coordinates, so the middle step is the perceptron of `Spec.lean` of the aggregated features.
  The last step is named here once, as a function `tail` of the arrays it reads (the perceptron's column, the two degree
  norms, the source and destination index vectors, the last bias), so that both programs' results can be stated as `tail`
  of the same arguments without opening the gather or the scatter-add.
-/
import proofs.«141508_j463856468204_1_alg».proof.Proof.RefRead
import proofs.«141508_j463856468204_1_alg».proof.Proof.Spec

set_option maxRecDepth 16384

noncomputable section

open scoped BigOperators

namespace Cert.ReferenceIdeal.Bridge

open Cert.ReferenceIdeal Cert.ReferenceIdeal.Gen Cert.ReferenceIdeal.ReadP Idealize.ShloMosaic Idealize.ShloMosaic.TcCoe Idealize.SL.Sem
open Idealize.ShloMosaic.ValueIdx

section Tail
variable {F : FTy → Type} [FloatOps F]

/-- The second aggregation and the last bias: the column `z` is scaled by the source-side degree norm `ns`, gathered at
    the source indices `src` (a negative index wrapped by the node count), scatter-added at the destination indices `dst`
    into a zero column, scaled by the destination-side norm `nd`, and the bias `b2` is added to every row. -/
def tail (z ns nd : (⟨S50000x1, .f32⟩ : BufTy).Contents (Elt F)) (src dst : (⟨S850000, .i32⟩ : BufTy).Contents (Elt F))
    (b2 : (⟨S1, .f32⟩ : BufTy).Contents (Elt F)) : (⟨S50000x1, .f32⟩ : BufTy).Contents (Elt F) :=
  addf
    (mulf
      (Host.scatterAdd scatter_S50000x1_S850000x1_S850000x1_1_0_0_1
        (broadcastInDim S50000x1 ![] bcast_S_S50000x1 (constant S_ .f32 0x00000000#32))
        (broadcastInDim S850000x1 ![0] bcast_S850000_S850000x1_0 dst)
        (Host.gather gather_S50000x1_S850000x1_S850000x1_1_0_n_n_0_1_11 (mulf z ns)
          (broadcastInDim S850000x1 ![0] bcast_S850000_S850000x1_0
            (select (cmpi .slt src (broadcastInDim S850000 ![] bcast_S_S850000 (constantI S_ 32 0#32)))
              (addi src (broadcastInDim S850000 ![] bcast_S_S850000 (constantI S_ 32 50000#32))) src))))
      nd)
    (broadcastInDim S50000x1 ![0, 1] bcast_S1x1_S50000x1_0_1 (broadcastInDim S1x1 ![1] bcast_S1_S1x1_1 b2))

/-- The reference's result is `tail` of its own second product, norms and index vectors. -/
theorem out_eq_tail (x0 : (⟨S50000x64, .f32⟩ : BufTy).Contents (Elt F)) (x1 : (⟨S2x800000, .i32⟩ : BufTy).Contents (Elt F))
    (x2 : (⟨S64x64, .f32⟩ : BufTy).Contents (Elt F)) (x3 : (⟨S64, .f32⟩ : BufTy).Contents (Elt F))
    (x4 : (⟨S64x1, .f32⟩ : BufTy).Contents (Elt F)) (x5 : (⟨S1, .f32⟩ : BufTy).Contents (Elt F)) :
    val_main_v58 (F := F) x0 x1 x2 x3 x4 x5
      = tail (val_main_v43 (F := F) x0 x1 x2 x3 x4) (val_main_v18 (F := F) x1) (val_main_v23 (F := F) x1)
          (val_main_v3 (F := F) x1) (val_main_v6 (F := F) x1) x5 := rfl

end Tail

/-! ## The reference's middle step is the perceptron -/

/-- The first product's left operand under hidden unit `k` of row `i 0`, at contracted coordinate `j`: entry (row, j). -/
theorem left_first (i : S50000x1.Idx) (k j : Fin 64) : lidx_main_v38 (lidx_main_v43 i k) j = ix2 (i 0) j :=
  funext fun a => Fin.ext (by match a with | ⟨0, _⟩ => rfl | ⟨1, _⟩ => rfl)
/-- Its right operand: entry (j, k) of the first weight matrix. -/
theorem right_first (i : S50000x1.Idx) (k j : Fin 64) : ridx_main_v38 (lidx_main_v43 i k) j = ix2 j k :=
  funext fun a => Fin.ext (by match a with | ⟨0, _⟩ => rfl | ⟨1, _⟩ => rfl)
/-- The bias broadcast along the rows reads entry `k`. -/
theorem bias_idx (i : S50000x1.Idx) (k : Fin 64) : idx_main_v39 (idx_main_v40 (lidx_main_v43 i k)) = ix1 k :=
  funext fun a => Fin.ext (by match a with | ⟨0, _⟩ => rfl)
/-- The second product's right operand: entry (k, column) of the second weight column. -/
theorem right_second (i : S50000x1.Idx) (k : Fin 64) : ridx_main_v43 i k = ix2 k (i 1) :=
  funext fun a => Fin.ext (by match a with | ⟨0, _⟩ => rfl | ⟨1, _⟩ => rfl)

/-- The rectified affine image the reference computes, at row `i 0` and hidden unit `k`, is the hidden activation. -/
theorem ref_hidden (x0 : (⟨S50000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal)) (i : S50000x1.Idx) (k : Fin 64) :
    val_main_v42 (F := Ideal) x0 x1 x2 x3 (lidx_main_v43 i k) = Cert.Spec.hidden (val_main_v37 (F := Ideal) x0 x1) x2 x3 (i 0) k := by
  rw [val_main_v42_apply, val_main_v41_apply, val_main_v38_apply, val_main_v40_apply, val_main_v39_apply,
    val_main_call2_v0_apply, val_main_call2_cst_apply]
  simp only [left_first, right_first, bias_idx]
  rfl

/-- THE REFERENCE'S SECOND PRODUCT is the perceptron of its aggregated features. -/
theorem ref_mlp (x0 : (⟨S50000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal))
    (x4 : (⟨S64x1, .f32⟩ : BufTy).Contents (Elt Ideal)) :
    val_main_v43 (F := Ideal) x0 x1 x2 x3 x4 = Cert.Spec.mlp (val_main_v37 (F := Ideal) x0 x1) x2 x3 x4 := by
  funext i
  rw [val_main_v43_apply]
  unfold Cert.Spec.mlp
  refine Finset.sum_congr rfl fun k _ => ?_
  rw [ref_hidden, right_second]
  rfl

/-- The reference run's result term: `tail` of the perceptron of the aggregated features. -/
theorem result_eq (m : (ℓ : Loc nD τ sig) → Buf (Elt Ideal) ℓ) (c : Dev nD) :
    Cert.ReferenceIdeal.ValueP.res_main_v58 (F := Ideal) m c
      = tail (F := Ideal)
          (Cert.Spec.mlp (val_main_v37 (F := Ideal) (m ((c.tc : Thread nD τ).loc main_arg0)) (m ((c.tc : Thread nD τ).loc main_arg1)))
            (m ((c.tc : Thread nD τ).loc main_arg2)) (m ((c.tc : Thread nD τ).loc main_arg3)) (m ((c.tc : Thread nD τ).loc main_arg4)))
          (val_main_v18 (F := Ideal) (m ((c.tc : Thread nD τ).loc main_arg1))) (val_main_v23 (F := Ideal) (m ((c.tc : Thread nD τ).loc main_arg1)))
          (val_main_v3 (F := Ideal) (m ((c.tc : Thread nD τ).loc main_arg1))) (val_main_v6 (F := Ideal) (m ((c.tc : Thread nD τ).loc main_arg1)))
          (m ((c.tc : Thread nD τ).loc main_arg5)) := by
  rw [val_main_v58_eq, out_eq_tail, ref_mlp]

end Cert.ReferenceIdeal.Bridge

end
-- ==== Proof.KernelPayload.lean ====
/-
  The kernel body's value on one block, entry by entry, over the extended reals: the block of 5000 aggregated rows is
  multiplied by the first weight matrix (a sum over the 64 input features at every entry), the bias is added along the
  rows, the result is rectified against zero, and that is multiplied by the second weight column (a sum over the 64
  hidden units). The operands' narrowing to bf16 before each product is the identity on extended reals, and each product
  accumulates from a zero block, so the body's stored value is the row-wise perceptron of `Spec.lean` on the block.
-/
import proofs.«141508_j463856468204_1_alg».proof.Proof.Gen.KernelIdeal.Skeleton
import proofs.«141508_j463856468204_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Payload

open Cert.KernelIdeal Cert.KernelIdeal.Gen Idealize.ShloMosaic Idealize.ShloMosaic.ValueIdx

/-! ## The two matrix products' operand indices, axis by axis -/

theorem lhs_first_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_first_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_first_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_first_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

theorem lhs_second_0 (i : S5000x1.Idx) (q : dot_S5000x64_S64x1_S5000x1_1_0_0_1_n_n.contr.Idx) :
    (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
theorem lhs_second_1 (i : S5000x1.Idx) (q : dot_S5000x64_S64x1_S5000x1_1_0_0_1_n_n.contr.Idx) :
    (dot_S5000x64_S64x1_S5000x1_1_0_0_1_n_n.lhsIdx i q 1).val = (q ⟨0, by decide⟩).val :=
  dot_S5000x64_S64x1_S5000x1_1_0_0_1_n_n.lhsIdx_val_of_single rfl i q
theorem rhs_second_0 (i : S5000x1.Idx) (q : dot_S5000x64_S64x1_S5000x1_1_0_0_1_n_n.contr.Idx) :
    (dot_S5000x64_S64x1_S5000x1_1_0_0_1_n_n.rhsIdx i q 0).val = (q ⟨0, by decide⟩).val :=
  dot_S5000x64_S64x1_S5000x1_1_0_0_1_n_n.rhsIdx_val_of_single rfl i q
theorem rhs_second_1 (i : S5000x1.Idx) (q : dot_S5000x64_S64x1_S5000x1_1_0_0_1_n_n.contr.Idx) :
    (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-! ## The two matrix products at an entry: sums over the 64 contracted coordinates -/

/-- Entry (p, k) of the block's first product, accumulated from zero: row p of the left operand against column k of
    the right. -/
theorem first_apply (x : FVec Ideal S5000x64 .bf16) (w : FVec Ideal S64x64 .bf16) (p : Fin 5000) (k : Fin 64) :
    matmul dot_S5000x64_S64x64_S5000x64_1_0_0_1_n_n none x w (constant S5000x64 .f32 0x00000000#32) (ix2 p k)
      = ∑ j : Fin 64, x (ix2 p j) * w (ix2 j k) := by
  simp only [matmul]
  rw [Ideal.matmul_constant_zero_apply, ← Equiv.sum_comp (contrEquiv1 dot_S5000x64_S64x64_S5000x64_1_0_0_1_n_n 64 rfl rfl).symm]
  refine Finset.sum_congr rfl fun j _ => ?_
  have hk := contrEquiv1_symm_val dot_S5000x64_S64x64_S5000x64_1_0_0_1_n_n 64 rfl rfl j
  have el : dot_S5000x64_S64x64_S5000x64_1_0_0_1_n_n.lhsIdx (ix2 p k) ((contrEquiv1 dot_S5000x64_S64x64_S5000x64_1_0_0_1_n_n 64 rfl rfl).symm j) = ix2 p j := funext fun a => Fin.ext (by
    match a with
    | ⟨0, _⟩ => exact lhs_first_0 _ _
    | ⟨1, _⟩ => exact (lhs_first_1 _ _).trans hk)
  have er : dot_S5000x64_S64x64_S5000x64_1_0_0_1_n_n.rhsIdx (ix2 p k) ((contrEquiv1 dot_S5000x64_S64x64_S5000x64_1_0_0_1_n_n 64 rfl rfl).symm j) = ix2 j k := funext fun a => Fin.ext (by
    match a with
    | ⟨0, _⟩ => exact (rhs_first_0 _ _).trans hk
    | ⟨1, _⟩ => exact rhs_first_1 _ _)
  rw [el, er]

/-- Entry (p, q) of the block's second product, accumulated from zero. -/
theorem second_apply (x : FVec Ideal S5000x64 .bf16) (w : FVec Ideal S64x1 .bf16) (p : Fin 5000) (q : Fin 1) :
    matmul dot_S5000x64_S64x1_S5000x1_1_0_0_1_n_n none x w (constant S5000x1 .f32 0x00000000#32) (ix2 p q)
      = ∑ k : Fin 64, x (ix2 p k) * w (ix2 k q) := by
  simp only [matmul]
  rw [Ideal.matmul_constant_zero_apply, ← Equiv.sum_comp (contrEquiv1 dot_S5000x64_S64x1_S5000x1_1_0_0_1_n_n 64 rfl rfl).symm]
  refine Finset.sum_congr rfl fun k _ => ?_
  have hk := contrEquiv1_symm_val dot_S5000x64_S64x1_S5000x1_1_0_0_1_n_n 64 rfl rfl k
  have el : dot_S5000x64_S64x1_S5000x1_1_0_0_1_n_n.lhsIdx (ix2 p q) ((contrEquiv1 dot_S5000x64_S64x1_S5000x1_1_0_0_1_n_n 64 rfl rfl).symm k) = ix2 p k := funext fun a => Fin.ext (by
    match a with
    | ⟨0, _⟩ => exact lhs_second_0 _ _
    | ⟨1, _⟩ => exact (lhs_second_1 _ _).trans hk)
  have er : dot_S5000x64_S64x1_S5000x1_1_0_0_1_n_n.rhsIdx (ix2 p q) ((contrEquiv1 dot_S5000x64_S64x1_S5000x1_1_0_0_1_n_n 64 rfl rfl).symm k) = ix2 k q := funext fun a => Fin.ext (by
    match a with
    | ⟨0, _⟩ => exact (rhs_second_0 _ _).trans hk
    | ⟨1, _⟩ => exact rhs_second_1 _ _)
  rw [el, er]

/-! ## The bias row, and the body's value -/

/-- The bias vector laid out as one row and repeated down the block reads its entry of the column. -/
theorem bias_apply (b : Vec Ideal S64 .f32) (p : Fin 5000) (k : Fin 64) :
    broadcastTo S5000x64 (shapeCast S1x64 b shapeCasts_S64_S1x64) broadcasts_S1x64_S5000x64 (ix2 p k) = b (ix1 k) := by
  rw [broadcastTo_apply _ broadcasts_S1x64_S5000x64 (ix2 p k) (ix2 (0 : Fin 1) k) (fun a => by
      match a with
      | ⟨0, _⟩ => show (0 : Nat) = if (1 : Nat) = 1 then 0 else p.val; rw [if_pos rfl]
      | ⟨1, _⟩ => show k.val = if (64 : Nat) = 1 then 0 else k.val; rw [if_neg (by decide)])]
  rw [shapeCast_addUnit_apply ![64]]
  exact congrArg b (funext fun a => by match a with | ⟨0, _⟩ => rfl)

/-- THE BODY'S VALUE at entry (p, q) of the output block: the perceptron of the block's rows — the narrowing of the
    operands to bf16 being the identity on extended reals, the first product a sum over the 64 input features, the
    second a sum over the 64 hidden units. -/
theorem pay_apply (x0 : Vec Ideal S5000x64 .f32) (x1 : Vec Ideal S64x64 .f32) (x2 : Vec Ideal S64 .f32) (x3 : Vec Ideal S64x1 .f32)
    (p : Fin 5000) (q : Fin 1) :
    k0_pay1 (F := Ideal) x0 x1 x2 x3 (ix2 p q) = Cert.Spec.mlp x0 x1 x2 x3 (ix2 p q) := by
  unfold k0_pay1
  rw [second_apply]
  unfold Cert.Spec.mlp
  refine Finset.sum_congr rfl fun k _ => ?_
  rw [truncf_apply, truncf_apply, maximumf_apply, addf_apply, first_apply, bias_apply, shapeCast_self]
  rfl

end Cert.KernelIdeal.Payload

end
-- ==== Proof.KernelBlocks.lean ====
/-
  From the body's blocks to the kernel's whole output array. The grid has ten points; point t stages rows
  5000·t … 5000·t + 4999 of the aggregated features (all 64 columns) and the whole of the two weight arrays and of the
  bias, and writes back rows 5000·t … 5000·t + 4999 of the one output column. The perceptron of `Spec.lean` is row-wise:
  entry r of the output reads row r of the features only. So what point t writes back is block t of the perceptron of
  the WHOLE arrays, the ten blocks tile the 50000 rows, and the output array ends holding the perceptron of the arrays
  as the kernel region found them.
-/
import proofs.«141508_j463856468204_1_alg».proof.Proof.Gen.KernelIdeal.Frame
import proofs.«141508_j463856468204_1_alg».proof.Proof.KernelPayload

set_option maxRecDepth 16384

noncomputable section

open scoped BigOperators

namespace Cert.Spec

open Idealize.ShloMosaic Idealize.ShloMosaic.ValueIdx

/-- The perceptron is row-wise: if row `i 0` of `a` is row `i' 0` of `a'`, the outputs there agree (the output has one
    column, so the column coordinates agree by themselves). -/
theorem mlp_row {n n' : Nat} (a : (⟨2, ![n, 64]⟩ : Shape).Idx → EReal) (a' : (⟨2, ![n', 64]⟩ : Shape).Idx → EReal)
    (W1 : (⟨2, ![64, 64]⟩ : Shape).Idx → EReal) (b1 : (⟨1, ![64]⟩ : Shape).Idx → EReal) (W2 : (⟨2, ![64, 1]⟩ : Shape).Idx → EReal)
    (i : (⟨2, ![n, 1]⟩ : Shape).Idx) (i' : (⟨2, ![n', 1]⟩ : Shape).Idx)
    (h : ∀ j : Fin 64, a (ix2 (i 0) j) = a' (ix2 (i' 0) j)) : mlp a W1 b1 W2 i = mlp a' W1 b1 W2 i' := by
  have h1 : (i 1 : Fin 1) = (i' 1 : Fin 1) :=
    Fin.ext (by have a : (i 1).val < 1 := (i 1).isLt; have b : (i' 1).val < 1 := (i' 1).isLt; omega)
  unfold mlp
  refine Finset.sum_congr rfl fun k _ => ?_
  rw [hidden_congr a a' W1 b1 (i 0) (i' 0) k h, h1]

end Cert.Spec

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

theorem zero2 : (![0, 0] : Fin 2 → Nat) = fun _ => 0 := funext fun a => by fin_cases a <;> rfl
theorem zero1 : (![0] : Fin 1 → Nat) = fun _ => 0 := funext fun a => by fin_cases a; rfl

/-! ## The arrays the region finds, and the blocks a point stages, at their literal types -/

/-- The aggregated features as the region finds them: the contents of the array the first window stages. -/
abbrev feats (c : Dev nD) : S50000x64.Idx → EReal := V m c (Pipeline.arrRef spec0 0)
/-- The first weight matrix, the bias and the second weight column as the region finds them. -/
abbrev w1 (c : Dev nD) : S64x64.Idx → EReal := V m c main_arg2
abbrev bias (c : Dev nD) : S64.Idx → EReal := V m c main_arg3
abbrev w2 (c : Dev nD) : S64x1.Idx → EReal := V m c main_arg4

/-- Point `t`'s staged blocks. -/
abbrev featsBlk (c : Dev nD) (t : Fin cfg0.N) : Vec Ideal S5000x64 .f32 := iblk m c 0 t
abbrev w1Blk (c : Dev nD) (t : Fin cfg0.N) : Vec Ideal S64x64 .f32 := iblk m c 1 t
abbrev biasBlk (c : Dev nD) (t : Fin cfg0.N) : Vec Ideal S64 .f32 := iblk m c 2 t
abbrev w2Blk (c : Dev nD) (t : Fin cfg0.N) : Vec Ideal S64x1 .f32 := iblk m c 3 t

/-- The printed index maps over the grid: the feature window moves down the rows with the output window and stays
    at column block 0; the weights' and the bias's windows stay at block 0; the output's row block runs over 0 … 9. -/
theorem idx_facts : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) ≤ 9 ∧ win0_4.index t (1 : Fin 2) = 0 :=
  (by decide +kernel : ∀ t : Fin grid0.N, _)

/-- Every one of the ten row blocks is some point's. -/
theorem idx_onto : ∀ q0 : Fin 10, ∃ t : Fin cfg0.N, win0_4.index t = ![q0.val, 0] :=
  (by decide +kernel : ∀ q0 : Fin 10, ∃ t : Fin grid0.N, win0_4.index t = ![q0.val, 0])

/-- The weights' and the bias's blocks are the whole arrays. -/
theorem w1Blk_eq (c : Dev nD) (t : Fin cfg0.N) : w1Blk m c t = w1 m c := by
  obtain ⟨-, -, e2, e3, -, -, -, -, -⟩ := idx_facts t
  funext y
  show V m c main_arg2 (((cfg0.win 1).blk t).view.emb y) = V m c main_arg2 y
  refine congrArg (V m c main_arg2) (funext fun a => Fin.ext ?_)
  match a with
  | ⟨0, _⟩ => show win0_1.index t (0 : Fin 2) * 64 + 1 * (y 0).val = (y 0).val; omega
  | ⟨1, _⟩ => show win0_1.index t (1 : Fin 2) * 64 + 1 * (y 1).val = (y 1).val; omega
theorem biasBlk_eq (c : Dev nD) (t : Fin cfg0.N) : biasBlk m c t = bias m c := by
  obtain ⟨-, -, -, -, e4, -, -, -, -⟩ := idx_facts t
  funext y
  show V m c main_arg3 (((cfg0.win 2).blk t).view.emb y) = V m c main_arg3 y
  refine congrArg (V m c main_arg3) (funext fun a => Fin.ext ?_)
  match a with
  | ⟨0, _⟩ => show win0_2.index t (0 : Fin 1) * 64 + 1 * (y 0).val = (y 0).val; omega
theorem w2Blk_eq (c : Dev nD) (t : Fin cfg0.N) : w2Blk m c t = w2 m c := by
  obtain ⟨-, -, -, -, -, e5, e6, -, -⟩ := idx_facts t
  funext y
  show V m c main_arg4 (((cfg0.win 3).blk t).view.emb y) = V m c main_arg4 y
  refine congrArg (V m c main_arg4) (funext fun a => Fin.ext ?_)
  match a with
  | ⟨0, _⟩ => show win0_3.index t (0 : Fin 2) * 64 + 1 * (y 0).val = (y 0).val; omega
  | ⟨1, _⟩ => show win0_3.index t (1 : Fin 2) * 1 + 1 * (y 1).val = (y 1).val; omega

/-- Reading ANY array through the first window's block at point `t`: row `p` of the block is row
    `r = 5000 · (the point's row block) + p` of the array. -/
theorem feats_read (A : S50000x64.Idx → EReal) (t : Fin cfg0.N) (p : Fin 5000) (r : Fin 50000)
    (hr : r.val = win0_4.index t (0 : Fin 2) * 5000 + p.val) (j : Fin 64) :
    (((cfg0.win 0).blk t).view.read (Elt Ideal) A : S5000x64.Idx → EReal) (ix2 p j) = A (ix2 r j) := by
  obtain ⟨e0, e1, -, -, -, -, -, -, -⟩ := idx_facts t
  show A (((cfg0.win 0).blk t).view.emb (ix2 p j)) = A (ix2 r j)
  refine congrArg A (funext fun a => Fin.ext ?_)
  match a with
  | ⟨0, _⟩ => show win0_0.index t (0 : Fin 2) * 5000 + 1 * p.val = r.val; omega
  | ⟨1, _⟩ => show win0_0.index t (1 : Fin 2) * 64 + 1 * j.val = j.val; omega

/-- So row `p` of point `t`'s staged feature block is that row of the feature array. -/
theorem featsBlk_row (c : Dev nD) (t : Fin cfg0.N) (p : Fin 5000) (r : Fin 50000)
    (hr : r.val = win0_4.index t (0 : Fin 2) * 5000 + p.val) (j : Fin 64) :
    featsBlk m c t (ix2 p j) = feats m c (ix2 r j) := by
  unfold featsBlk iblk
  exact feats_read (feats m c) t p r hr j

/-- Entry `(p, q)` of point `t`'s output block is entry `(r, q)` of the output array, for the same row `r`. -/
theorem out_emb (t : Fin cfg0.N) (p : Fin 5000) (q : Fin 1) (r : Fin 50000)
    (hr : r.val = win0_4.index t (0 : Fin 2) * 5000 + p.val) :
    (((cfg0.win 4).blk t).view.emb (ix2 p q) : S50000x1.Idx) = ix2 r q := by
  obtain ⟨-, -, -, -, -, -, -, -, e8⟩ := idx_facts t
  funext a; apply Fin.ext
  match a with
  | ⟨0, _⟩ => show win0_4.index t (0 : Fin 2) * 5000 + 1 * p.val = r.val; omega
  | ⟨1, _⟩ => show win0_4.index t (1 : Fin 2) * 1 + 1 * q.val = q.val; omega

/-- The output window is never cut at the array's edge (the blocks tile the rows): what a write-back moves is the
    whole staging buffer. For any buffer contents. -/
theorem cut_out (t : Fin cfg0.N) (X : Vec Ideal S5000x1 .f32) : (cfg0.win 4).cut (grid0.coords t) X = X :=
  funext fun y => congrArg X (funext fun a => Fin.ext rfl)

/-- Reading ANY array through the output window's block at point `t`. -/
theorem read_out (t : Fin cfg0.N) (G : S50000x1.Idx → EReal) (y : S5000x1.Idx) :
    (((cfg0.win 4).blk t).view.read (Elt Ideal) G : S5000x1.Idx → EReal) y = G (((cfg0.win 4).blk t).view.emb y) := rfl

/-- The body stores one piece, the whole output block, and loads each input block whole: what it leaves in the output
    buffer is its payload of the input blocks. For any block contents. -/
theorem out_eq_pay (x0 : Vec Ideal S5000x64 .f32) (x1 : Vec Ideal S64x64 .f32) (x2 : Vec Ideal S64 .f32) (x3 : Vec Ideal S64x1 .f32) :
    out0_4 (F := Ideal) x0 x1 x2 x3 = k0_pay1 (F := Ideal) x0 x1 x2 x3 := by
  unfold out0_4
  rw [View.canon_unit_zero zero2]
  simp only [View.ld_unit_zero (S := S5000x64) zero2, View.ld_unit_zero (S := S64x64) zero2, View.ld_unit_zero (S := S64) zero1, View.ld_unit_zero (S := S64x1) zero2]

/-- Entry `(p, q)` of what point `t` leaves in the output buffer: the perceptron of the whole arrays at the entry of the
    output array under it. -/
theorem out_entry (c : Dev nD) (t : Fin cfg0.N) (p : Fin 5000) (q : Fin 1) :
    out0_4 (F := Ideal) (featsBlk m c t) (w1Blk m c t) (biasBlk m c t) (w2Blk m c t) (ix2 p q)
      = Cert.Spec.mlp (feats m c) (w1 m c) (bias m c) (w2 m c) (((cfg0.win 4).blk t).view.emb (ix2 p q)) := by
  have hlt : win0_4.index t (0 : Fin 2) * 5000 + p.val < 50000 := by
    obtain ⟨-, -, -, -, -, -, -, e7, -⟩ := idx_facts t
    have hp : p.val < 5000 := p.isLt
    omega
  refine (congrFun (out_eq_pay (featsBlk m c t) (w1Blk m c t) (biasBlk m c t) (w2Blk m c t)) (ix2 p q)).trans ?_
  refine (Payload.pay_apply (featsBlk m c t) (w1Blk m c t) (biasBlk m c t) (w2Blk m c t) p q).trans ?_
  rw [out_emb t p q ⟨_, hlt⟩ rfl, w1Blk_eq, biasBlk_eq, w2Blk_eq]
  exact Cert.Spec.mlp_row (featsBlk m c t) (feats m c) (w1 m c) (bias m c) (w2 m c) (ix2 p q) (ix2 ⟨_, hlt⟩ q)
    (fun j => featsBlk_row m c t p ⟨_, hlt⟩ rfl j)

/-- WHAT POINT `t` WRITES BACK is block `t` of the perceptron of the whole arrays. -/
theorem flushed_eq (c : Dev nD) (t : Fin cfg0.N) :
    (dats m 0 c).flushed 4 t = ((cfg0.win 4).blk t).view.read (Elt Ideal) (Cert.Spec.mlp (feats m c) (w1 m c) (bias m c) (w2 m c)) := by
  show (cfg0.win 4).cut (grid0.coords t) ((dats m 0 c).after 4 t) = _
  rw [after0_4, cut_out]
  funext y
  rw [read_out, eq_ix2 y]
  exact out_entry m c t (y 0) (y 1)

/-- An index of the output array is in point `t`'s block iff each coordinate is in the block's range on its axis. -/
theorem mem_blk (t : Fin cfg0.N) (i : S50000x1.Idx) :
    i ∈ ((cfg0.win 4).blk t).view.set ↔ ∀ a : Fin 2, win0_4.index t a * S5000x1.size a ≤ (i a).val ∧ (i a).val < win0_4.index t a * S5000x1.size a + S5000x1.size a := by
  show i ∈ ((View.whole main_v38).slice (win0_4.rect t)).set ↔ _
  rw [View.set_slice_whole, Rect.mem_set_unit]
  exact Iff.rfl

/-- The ten blocks tile the output array: row `r` lies in the block of point `r / 5000`. -/
theorem cover (i : S50000x1.Idx) : ∃ t : Fin cfg0.N, (cfg0.win 4).flush t = true ∧ i ∈ ((cfg0.win 4).blk t).view.set := by
  have hi0 : (i 0).val < 50000 := (i 0).isLt
  have hi1 : (i 1).val < 1 := (i 1).isLt
  obtain ⟨t, ht⟩ := idx_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 1 ≤ (i 1).val ∧ (i 1).val < win0_4.index t (1 : Fin 2) * 1 + 1; omega

/-- THE OUTPUT ARRAY after the region: the perceptron of the arrays as the region found them. -/
theorem final (c : Dev nD) :
    (dats m 0 c).arrAt 4 cfg0.N = Cert.Spec.mlp (feats m c) (w1 m c) (bias m c) (w2 m c) :=
  (dats m 0 c).arrAt_eq_of_cover 4 _ (fun t _ => flushed_eq m c t) cover

/-- The feature array is the buffer the aggregation before the region wrote. -/
theorem feats_eq (c : Dev nD) : feats m c = V m c main_v37 := rfl

end Cert.KernelIdeal.Blocks

end
-- ==== Proof.KernelHost.lean ====
/-
  The kernel program's host operations, read against the reference's. Before its one kernel region the kernel program
  runs the same host lines as the reference's first part — the two index vectors (the edge list's rows with the
  self-loops appended), the two degree norms (a scatter-add of ones, its reciprocal square root where the degree is
  positive and zero elsewhere), and the first aggregation of the node features — so each buffer the region or the later
  lines read holds, when the region is entered, the reference's stage of the same name, as a function of the arguments.
  After the region the kernel program runs the same second aggregation and bias as the reference, on the region's
  output array in place of the reference's host product: its result buffer is the function `tail` of that array and of
  the buffers above. Everything here holds for any float family; nothing is computed, the terms are compared.
-/
import proofs.«141508_j463856468204_1_alg».proof.Proof.Gen.KernelIdeal.Frame
import proofs.«141508_j463856468204_1_alg».proof.Proof.RefBridge
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-! ## What the region finds: the reference's stages of the arguments -/

set_option maxHeartbeats 4000000 in
/-- The source index vector: the edge list's first row, then the nodes' own indices. -/
theorem V_src (c : Dev nD) :
    V m c main_v3 = Cert.ReferenceIdeal.ReadP.val_main_v3 (F := F) (m ((c : Thread nD τ).loc main_arg1)) := by
  dsimp only [V, V0]
  simp only [hostOps0, hostOps0_1, hostOps0_2, hostOps0_3, hostOps0_4, List.flatten_cons, List.flatten_nil, List.append_nil, List.cons_append, List.nil_append]
  after_results_simp
  rfl

set_option maxHeartbeats 4000000 in
/-- The destination index vector: the edge list's second row, then the nodes' own indices. -/
theorem V_dst (c : Dev nD) :
    V m c main_v6 = Cert.ReferenceIdeal.ReadP.val_main_v6 (F := F) (m ((c : Thread nD τ).loc main_arg1)) := by
  dsimp only [V, V0]
  simp only [hostOps0, hostOps0_1, hostOps0_2, hostOps0_3, hostOps0_4, List.flatten_cons, List.flatten_nil, List.append_nil, List.cons_append, List.nil_append]
  after_results_simp
  rfl

set_option maxHeartbeats 4000000 in
/-- The source-side degree norm, as a column. -/
theorem V_normSrc (c : Dev nD) :
    V m c main_v18 = Cert.ReferenceIdeal.ReadP.val_main_v18 (F := F) (m ((c : Thread nD τ).loc main_arg1)) := by
  dsimp only [V, V0]
  simp only [hostOps0, hostOps0_1, hostOps0_2, hostOps0_3, hostOps0_4, List.flatten_cons, List.flatten_nil, List.append_nil, List.cons_append, List.nil_append]
  after_results_simp
  rfl

set_option maxHeartbeats 4000000 in
/-- The destination-side degree norm, as a column. -/
theorem V_normDst (c : Dev nD) :
    V m c main_v23 = Cert.ReferenceIdeal.ReadP.val_main_v23 (F := F) (m ((c : Thread nD τ).loc main_arg1)) := by
  dsimp only [V, V0]
  simp only [hostOps0, hostOps0_1, hostOps0_2, hostOps0_3, hostOps0_4, List.flatten_cons, List.flatten_nil, List.append_nil, List.cons_append, List.nil_append]
  after_results_simp
  rfl

set_option maxHeartbeats 4000000 in
/-- The aggregated node features the region's first window stages. -/
theorem V_feats (c : Dev nD) :
    V m c main_v37 = Cert.ReferenceIdeal.ReadP.val_main_v37 (F := F) (m ((c : Thread nD τ).loc main_arg0)) (m ((c : Thread nD τ).loc main_arg1)) := by
  dsimp only [V, V0]
  simp only [hostOps0, hostOps0_1, hostOps0_2, hostOps0_3, hostOps0_4, List.flatten_cons, List.flatten_nil, List.append_nil, List.cons_append, List.nil_append]
  after_results_simp
  rfl

/-! ## What the lines after the region leave in the result buffer -/

set_option maxHeartbeats 4000000 in
/-- The result buffer after the lines that follow the region: the second aggregation and the last bias (`tail`) of the
    region's output array — window 4's array after the last write-back — and of the norms, index vectors and bias as
    the region found them (no window's array among them, so the region left them alone). -/
theorem result_eq_tail (c : Dev nD) :
    Pipeline.afterTail₀ cfgs (dats m) 0 (V0 m) [hostOps1] c main_v53
      = Cert.ReferenceIdeal.Bridge.tail (F := F) ((dats m 0 c).arrAt 4 cfg0.N) (V m c main_v18) (V m c main_v23)
          (V m c main_v3) (V m c main_v6) (V m c main_arg5) := by
  unfold Pipeline.afterTail₀
  show StableHlo.after hostOps1 _ (Proc.devRef .tc main_v53) = _
  after_results_simp
  rw [Pipeline.withArrays_of_ne _ c (V0 m c) _ main_v6 (by exact (by decide : ∀ w, Pipeline.arrRef spec0 w ≠ main_v6)),
    Pipeline.withArrays_of_ne _ c (V0 m c) _ main_v18 (by exact (by decide : ∀ w, Pipeline.arrRef spec0 w ≠ main_v18)),
    Pipeline.withArrays_of_ne _ c (V0 m c) _ main_v3 (by exact (by decide : ∀ w, Pipeline.arrRef spec0 w ≠ main_v3)),
    Pipeline.withArrays_of_ne _ c (V0 m c) _ main_v23 (by exact (by decide : ∀ w, Pipeline.arrRef spec0 w ≠ main_v23)),
    Pipeline.withArrays_of_ne _ c (V0 m c) _ main_arg5 (by exact (by decide : ∀ w, Pipeline.arrRef spec0 w ≠ main_arg5)),
    show Pipeline.withArrays (cfgs 0).spec c (V0 m c) (fun w => (dats m 0 c).arrAt w (cfgs 0).N) (Proc.devRef .tc main_v38)
        = (dats m 0 c).arrAt 4 cfg0.N from
      Pipeline.withArrays_arr spec0 launch0.win.arr_inj c (V0 m c) (fun w => (dats m 0 c).arrAt w cfg0.N) 4]
  rfl

end Cert.KernelIdeal.Host

end
-- ==== Proof.KernelRun.lean ====
/-
  The idealized kernel program's run, with its result named. The generated frame run leaves every array of the
  pipeline at what the write-backs made of it and every other buffer at what the lines after the region computed. The
  region's output array is the perceptron of the arrays the region found (`KernelBlocks.lean`); those arrays are the
  reference's aggregated features and the weight and bias arguments (`KernelHost.lean`); and the result buffer is the
  second aggregation and last bias of that array (`KernelHost.lean`). So the result is one function of the arguments:
  the same one the reference's run ends at (`RefBridge.lean`).
-/
import proofs.«141508_j463856468204_1_alg».proof.Proof.KernelBlocks
import proofs.«141508_j463856468204_1_alg».proof.Proof.KernelHost

set_option maxRecDepth 16384

noncomputable section

namespace Cert.KernelIdeal.Host

open Cert.KernelIdeal Cert.KernelIdeal.Gen Idealize.ShloMosaic Idealize.ShloMosaic.TcCoe Idealize.SL.Sem
open Cert.ReferenceIdeal.ReadP (val_main_v3 val_main_v6 val_main_v18 val_main_v23 val_main_v37)

variable (m : (ℓ : Loc nD τ sig) → Buf (Elt Ideal) ℓ) (ρ : Dev nD → PrngReg)

/-- The program's result as a function of its arguments: aggregate the features, apply the perceptron row by row,
    aggregate its output column, add the last bias. -/
def result (c : Dev nD) : Buf (Elt Ideal) ((c.tc : Thread nD τ).loc main_v53) :=
  Cert.ReferenceIdeal.Bridge.tail (F := Ideal)
    (Cert.Spec.mlp (val_main_v37 (F := Ideal) (m ((c.tc : Thread nD τ).loc main_arg0)) (m ((c.tc : Thread nD τ).loc main_arg1)))
      (m ((c.tc : Thread nD τ).loc main_arg2)) (m ((c.tc : Thread nD τ).loc main_arg3)) (m ((c.tc : Thread nD τ).loc main_arg4)))
    (val_main_v18 (F := Ideal) (m ((c.tc : Thread nD τ).loc main_arg1))) (val_main_v23 (F := Ideal) (m ((c.tc : Thread nD τ).loc main_arg1)))
    (val_main_v3 (F := Ideal) (m ((c.tc : Thread nD τ).loc main_arg1))) (val_main_v6 (F := Ideal) (m ((c.tc : Thread nD τ).loc main_arg1)))
    (m ((c.tc : Thread nD τ).loc main_arg5))

/-- What the lines after the region leave in the result buffer is that function. -/
theorem after_eq_result (c : Dev nD) :
    Pipeline.afterTail₀ cfgs (dats m) 0 (V0 m) [hostOps1] c main_v53 = result m c := by
  rw [result_eq_tail, Blocks.final, Blocks.feats_eq]
  unfold Blocks.w1 Blocks.bias Blocks.w2
  rw [V_feats, V_normSrc, V_normDst, V_src, V_dst, V_main_arg2, V_main_arg3, V_main_arg4, V_main_arg5]
  rfl

/-- THE RUN: every weakly fair execution of the idealized kernel program terminates with its result buffer at
    `result` of the arguments and the arguments unchanged. -/
theorem run : θ_run defs (onTc (τ := τ) (main (F := Ideal))) ⟨m, fun _ => 0, ρ⟩ (fun r => ∀ c : Dev nD,
      r.2.mem ((c.tc : Thread nD τ).loc main_v53) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v53 (Pipeline.mem_restRefs_of main_v53 (by decide) (by decide))).trans (after_eq_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).2 main_arg5 (Pipeline.mem_restRefs_of main_arg5 (by decide) (by decide))).trans (W_main_arg5 m (dats m) c)⟩)
    (run_main m ρ)

end Cert.KernelIdeal.Host

end
-- ==== Proof.lean ====
/-
  A two-layer graph convolution (symmetric degree normalisation, self-loops) on 50000 nodes and 800000 edges, with the
  dense middle step — rectify(agg · W1 + b1) · W2, row by row — done by a Pallas kernel over ten blocks of 5000 rows,
  against a reference that does the same step with two host matrix products. Everything before and after that step
  (the degree norms, the gather and scatter-add aggregations, the last bias) is the same host computation in both
  programs. Over the extended reals the kernel's narrowing of its operands to bf16 is the identity and each matrix
  product, on the matrix unit or on the host, is the plain sum over the 64 contracted coordinates, so both programs
  end at one function of the arguments: the second aggregation of the row-wise perceptron of the first aggregation
  (`Spec.lean`, `RefBridge.lean`, `KernelRun.lean`). No algebraic law beyond re-indexing a finite sum is used, so the
  inputs' finiteness is never opened.
  The frames of the two kernel programs are the generated ones; the reference's is its run with the result dropped.
  The idealization rewrote nothing, so `preserves` is trivial.
-/
import proofs.«141508_j463856468204_1_alg».proof.Defs
import proofs.«141508_j463856468204_1_alg».proof.Proof.Gen.Kernel
import proofs.«141508_j463856468204_1_alg».proof.Proof.Gen.Kernel.Skeleton
import proofs.«141508_j463856468204_1_alg».proof.Proof.Gen.Kernel.Launch
import proofs.«141508_j463856468204_1_alg».proof.Proof.Gen.Kernel.Points
import proofs.«141508_j463856468204_1_alg».proof.Proof.Gen.Kernel.Frame
import proofs.«141508_j463856468204_1_alg».proof.Proof.Gen.KernelIdeal
import proofs.«141508_j463856468204_1_alg».proof.Proof.Gen.KernelIdeal.Skeleton
import proofs.«141508_j463856468204_1_alg».proof.Proof.Gen.KernelIdeal.Launch
import proofs.«141508_j463856468204_1_alg».proof.Proof.Gen.KernelIdeal.Points
import proofs.«141508_j463856468204_1_alg».proof.Proof.Gen.KernelIdeal.Frame
import proofs.«141508_j463856468204_1_alg».proof.Proof.Gen.ReferenceIdeal
import proofs.«141508_j463856468204_1_alg».proof.Proof.RefRun
import proofs.«141508_j463856468204_1_alg».proof.Proof.RefRead
import proofs.«141508_j463856468204_1_alg».proof.Proof.Spec
import proofs.«141508_j463856468204_1_alg».proof.Proof.RefBridge
import proofs.«141508_j463856468204_1_alg».proof.Proof.KernelRun
import proofs.«141508_j463856468204_1_alg».proof.Proof.Gen.Pre_finite_inputs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the arguments both idealized programs end at `Cert.KernelIdeal.Host.result` of the
    kernel program's arguments: the kernel program by its run, the reference by its run and the reading of its middle
    step as the perceptron, the arguments' agreement rewritten. -/
theorem algebraic : Cert.algebraic_KernelIdeal_ReferenceIdeal := by
  intro m ρ m' ρ' _ hagree
  refine ⟨fun c => Cert.KernelIdeal.Host.result m c, Cert.KernelIdeal.Host.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := hagree c
  rw [Cert.ReferenceIdeal.Bridge.result_eq, h0, h1, h2, h3, h4, h5]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
